-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S256x64 .f32) (main_arg6 : FVec F S256x64 .f32) (main_arg7 : FVec F S64 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x64 .f32 := Host.absf main_arg5
  let main_cst_6 : FVec F S_ .f32 := constant S_ .f32 0x7F800000#32
  let main_v20 : FVec F S256x64 .f32 := broadcastInDim S256x64 ![] bcast_S_S256x64 main_cst_6
  let main_v21 : IVec S256x64 1 := cmpf .olt main_v19 main_v20
  let main_c_7 : IVec S_ 1 := constantI S_ 1 1#1
  let main_v22 : IVec S_ 1 := (fun x v => Host.reduce IntOp.andi x v reducesTo_S256x64_S_d0_1 h_S_) main_v21 main_c_7
  let main_v23 : IVec S_ 1 := andi main_v18 main_v22
  let main_v24 : FVec F S256x64 .f32 := Host.absf main_arg6
  let main_cst_8 : FVec F S_ .f32 := constant S_ .f32 0x7F800000#32
  let main_v25 : FVec F S256x64 .f32 := broadcastInDim S256x64 ![] bcast_S_S256x64 main_cst_8
  let main_v26 : IVec S256x64 1 := cmpf .olt main_v24 main_v25
  let main_c_9 : IVec S_ 1 := constantI S_ 1 1#1
  let main_v27 : IVec S_ 1 := (fun x v => Host.reduce IntOp.andi x v reducesTo_S256x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x256 .f32) (main_arg3 : FVec F S128x256 .f32) (main_arg4 : FVec F S256 .f32) (main_arg5 : FVec F S256x64 .f32) (main_arg6 : FVec F S256x64 .f32) (main_arg7 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128x256 .f32 := Host.absf main_arg3
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S50000x256 : Shape := ⟨2, ![50000, 256]⟩
abbrev S2000x128 : Shape := ⟨2, ![2000, 128]⟩
abbrev S2000x256 : Shape := ⟨2, ![2000, 256]⟩
abbrev S1x256 : Shape := ⟨2, ![1, 256]⟩
abbrev S800000x256 : Shape := ⟨2, ![800000, 256]⟩
abbrev S50000x64 : Shape := ⟨2, ![50000, 64]⟩
abbrev S2000x64 : Shape := ⟨2, ![2000, 64]⟩
abbrev S1x64 : Shape := ⟨2, ![1, 64]⟩

abbrev nBuf : Space → Nat
  | .hbm => 68
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S128x256, .f32⟩
  | .hbm, ⟨4, _⟩ => ⟨S256, .f32⟩
  | .hbm, ⟨5, _⟩ => ⟨S256x64, .f32⟩
  | .hbm, ⟨6, _⟩ => ⟨S256x64, .f32⟩
  | .hbm, ⟨7, _⟩ => ⟨S64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S128x256, .bf16⟩
  | .hbm, ⟨38, _⟩ => ⟨S128x256, .bf16⟩
  | .hbm, ⟨39, _⟩ => ⟨S50000x256, .f32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000x256, .f32⟩
  | .hbm, ⟨49, _⟩ => ⟨S_, .f32⟩
  | .hbm, ⟨50, _⟩ => ⟨S50000x256, .f32⟩
  | .hbm, ⟨51, _⟩ => ⟨S800000x1, .i32⟩
  | .hbm, ⟨52, _⟩ => ⟨S50000x256, .f32⟩
  | .hbm, ⟨53, _⟩ => ⟨S_, .f32⟩
  | .hbm, ⟨54, _⟩ => ⟨S800000, .f32⟩
  | .hbm, ⟨55, _⟩ => ⟨S_, .f32⟩
  | .hbm, ⟨56, _⟩ => ⟨S50000, .f32⟩
  | .hbm, ⟨57, _⟩ => ⟨S800000x1, .i32⟩
  | .hbm, ⟨58, _⟩ => ⟨S50000, .f32⟩
  | .hbm, ⟨59, _⟩ => ⟨S_, .f32⟩
  | .hbm, ⟨60, _⟩ => ⟨S50000, .f32⟩
  | .hbm, ⟨61, _⟩ => ⟨S50000, .f32⟩
  | .hbm, ⟨62, _⟩ => ⟨S50000x1, .f32⟩
  | .hbm, ⟨63, _⟩ => ⟨S50000x256, .f32⟩
  | .hbm, ⟨64, _⟩ => ⟨S50000x256, .f32⟩
  | .hbm, ⟨65, _⟩ => ⟨S256x64, .bf16⟩
  | .hbm, ⟨66, _⟩ => ⟨S256x64, .bf16⟩
  | .hbm, ⟨67, _⟩ => ⟨S50000x64, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .bf16⟩
  | .local _ .vmem, ⟨5, _⟩ => ⟨S128x256, .bf16⟩
  | .local _ .vmem, ⟨6, _⟩ => ⟨S256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S256x64, .bf16⟩
  | .local _ .vmem, ⟨14, _⟩ => ⟨S256x64, .bf16⟩
  | .local _ .vmem, ⟨15, _⟩ => ⟨S64, .f32⟩
  | .local _ .vmem, ⟨16, _⟩ => ⟨S2000x64, .f32⟩
  | .local _ .vmem, ⟨17, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_4 : Ref sig .tc := ⟨.hbm, 40, rfl⟩
abbrev main_v26 : Ref sig .tc := ⟨.hbm, 41, rfl⟩
abbrev main_v27 : Ref sig .tc := ⟨.hbm, 42, rfl⟩
abbrev main_c_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_6 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_cst_8 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_9 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x64 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bitsLt_bf16_f32 : FTy.bits .bf16 < FTy.bits .f32
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  shapeCasts_S2000x256_S2000x256 : S2000x256.ShapeCasts S2000x256
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S64_S64_0 : ∀ a, (![0] : Fin 1 → Nat) a + S64.size a ≤ S64.size a
  h_S64 : 0 < S64.numel
  shapeCasts_S64_S1x64 : S64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S2000x128_S128x256_S2000x256_1_0_0_1_n_n_wf : DotDims.WF S2000x128 S128x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x64_S2000x64_1_0_0_1_n_n_wf : DotDims.WF S2000x256 S256x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .bf16 = 32 ∨ (Rect.block (s := S128x256) S128x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .bf16 = 32 ∨ (Rect.block (s := S128x256) S128x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x64.size a ≤ S256x64.size a
  hwx1_2 : ∀ i : grid1.Coords, EltTy.bits .bf16 = 32 ∨ (Rect.block (s := S256x64) S256x64.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x64.size a ≤ S256x64.size a
  hwx1_3 : ∀ i : grid1.Coords, EltTy.bits .bf16 = 32 ∨ (Rect.block (s := S256x64) S256x64.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x64.size a ≤ S50000x64.size a
  hwx1_5 : ∀ i : grid1.Coords, EltTy.bits .f32 = 32 ∨ (Rect.block (s := S50000x64) S2000x64.size (cc1_transform_5 i) (hinb1_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf

abbrev win0_0 : Pipeline.Window sig grid0 :=
  Pipeline.Window.ofSpec (Memref.whole main_v22) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v44) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v45) S256x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S256x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v47) S2000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S50000x256 : Shape := ⟨2, ![50000, 256]⟩
abbrev S1x256 : Shape := ⟨2, ![1, 256]⟩
abbrev S800000x256 : Shape := ⟨2, ![800000, 256]⟩
abbrev S50000x64 : Shape := ⟨2, ![50000, 64]⟩
abbrev S1x64 : Shape := ⟨2, ![1, 64]⟩

abbrev nBuf : Space → Nat
  | .hbm => 85
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S128x256, .f32⟩
  | .hbm, ⟨4, _⟩ => ⟨S256, .f32⟩
  | .hbm, ⟨5, _⟩ => ⟨S256x64, .f32⟩
  | .hbm, ⟨6, _⟩ => ⟨S256x64, .f32⟩
  | .hbm, ⟨7, _⟩ => ⟨S64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S50000x256, .f32⟩
  | .hbm, ⟨38, _⟩ => ⟨S50000x256, .f32⟩
  | .hbm, ⟨39, _⟩ => ⟨S50000x256, .f32⟩
  | .hbm, ⟨40, _⟩ => ⟨S1x256, .f32⟩
  | .hbm, ⟨41, _⟩ => ⟨S50000x256, .f32⟩
  | .hbm, ⟨42, _⟩ => ⟨S50000x256, .f32⟩
  | .hbm, ⟨43, _⟩ => ⟨S_, .f32⟩
  | .hbm, ⟨44, _⟩ => ⟨S50000x256, .f32⟩
  | .hbm, ⟨45, _⟩ => ⟨S50000x256, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x256, .f32⟩
  | .hbm, ⟨55, _⟩ => ⟨S_, .f32⟩
  | .hbm, ⟨56, _⟩ => ⟨S50000x256, .f32⟩
  | .hbm, ⟨57, _⟩ => ⟨S800000x1, .i32⟩
  | .hbm, ⟨58, _⟩ => ⟨S50000x256, .f32⟩
  | .hbm, ⟨59, _⟩ => ⟨S_, .f32⟩
  | .hbm, ⟨60, _⟩ => ⟨S800000, .f32⟩
  | .hbm, ⟨61, _⟩ => ⟨S_, .f32⟩
  | .hbm, ⟨62, _⟩ => ⟨S50000, .f32⟩
  | .hbm, ⟨63, _⟩ => ⟨S800000x1, .i32⟩
  | .hbm, ⟨64, _⟩ => ⟨S50000, .f32⟩
  | .hbm, ⟨65, _⟩ => ⟨S_, .f32⟩
  | .hbm, ⟨66, _⟩ => ⟨S50000, .f32⟩
  | .hbm, ⟨67, _⟩ => ⟨S50000, .f32⟩
  | .hbm, ⟨68, _⟩ => ⟨S50000x1, .f32⟩
  | .hbm, ⟨69, _⟩ => ⟨S50000x256, .f32⟩
  | .hbm, ⟨70, _⟩ => ⟨S50000x256, .f32⟩
  | .hbm, ⟨71, _⟩ => ⟨S50000x64, .f32⟩
  | .hbm, ⟨72, _⟩ => ⟨S50000x64, .f32⟩
  | .hbm, ⟨73, _⟩ => ⟨S50000x64, .f32⟩
  | .hbm, ⟨74, _⟩ => ⟨S1x64, .f32⟩
  | .hbm, ⟨75, _⟩ => ⟨S50000x64, .f32⟩
  | .hbm, ⟨76, _⟩ => ⟨S50000x64, .f32⟩
  | .hbm, ⟨77, _⟩ => ⟨S50000x64, .f32⟩
  | .hbm, ⟨78, _⟩ => ⟨S50000x64, .f32⟩
  | .hbm, ⟨79, _⟩ => ⟨S_, .f32⟩
  | .hbm, ⟨80, _⟩ => ⟨S50000x64, .f32⟩
  | .hbm, ⟨81, _⟩ => ⟨S50000x64, .f32⟩
  | .hbm, ⟨82, _⟩ => ⟨S_, .f32⟩
  | .hbm, ⟨83, _⟩ => ⟨S50000x64, .f32⟩
  | .hbm, ⟨84, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x64_S50000x64_1_0_0_1_n_n_wf : DotDims.WF S50000x256 S256x64 S50000x64 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf

class Facts : Prop extends Facts₀ where

variable [Facts]
-- ==== Proof.LibPlainMatmul.lean ====
/-
  A plain matrix product [M, K] x [K, N] into the zero accumulator, read at an entry, over the extended reals.

  With dimension numbers "contract the left operand's axis 1 with the right operand's axis 0, no batch axes"
  (`DotDims.plain M K N`) the product's entry (r, c) is the sum over k of a (r, k) * b (k, c): the left operand is read at
  the output's row and the contraction coordinate, the right one at the contraction coordinate and the output's column.
  Stated at any extents, with indices written by their coordinates.
-/
import Idealize.ShloMosaic.Lib.ValueIdx
import Idealize.ShloMosaic.PureOps.Ideal.Laws

noncomputable section

namespace Cert.PlainMatmul

open Idealize.ShloMosaic Idealize.ShloMosaic.ValueIdx

variable {M K N : ℕ}

/-- The left operand's row coordinate is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's column coordinate is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry (r, c) of the product into the zero accumulator is the sum over k of a (r, k) * b (k, c). -/
theorem apply (prec : Option ContractPrecision) {φ₁ φ₂ : FTy} (a : FVec Ideal ⟨2, ![M, K]⟩ φ₁) (b : FVec Ideal ⟨2, ![K, N]⟩ φ₂)
    (r : Fin M) (c : Fin N) :
    FloatOps.matmul (DotDims.plain M K N) prec a b (constant ⟨2, ![M, N]⟩ .f32 0x00000000#32) (ix2 r c)
      = ∑ k : Fin K, a (ix2 r k) * b (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun x => Fin.ext (by
      match x with
      | ⟨0, _⟩ => exact lhs_row _ _
      | ⟨1, _⟩ => exact (lhs_col _ _).trans hk)
  have er : (DotDims.plain M K N).rhsIdx (ix2 r c) ((contrEquiv1 (DotDims.plain M K N) K rfl rfl).symm k) = ix2 k c :=
    funext fun x => Fin.ext (by
      match x with
      | ⟨0, _⟩ => exact (rhs_row _ _).trans hk
      | ⟨1, _⟩ => exact rhs_col _ _)
  rw [el, er]

end Cert.PlainMatmul

end
-- ==== Proof.LibDenseRows.lean ====
/-
  Rows of a dense layer over the extended reals.

  A graph layer takes, for each node r, the mean A (r, ·) of its neighbours' feature rows and the node's own row X (r, ·),
  sends the first through a weight matrix Wl and the second through Wr, and adds a bias row b:

      pre (r, c) = sum over k of A (r, k) * Wl (k, c)  +  sum over k of X (r, k) * Wr (k, c)  +  b (c).

  Two spellings of that entry are read here at any extents: the host's, two whole products [M, K] x [K, N] and the bias
  broadcast through a [1, N] row; and a tile's, two products of a block of rows into the zero accumulator and the bias
  cast to a [1, N] row and broadcast down the tile. Each is the entry `pre` of its operands; a tile of rows o … o + T - 1
  of the arrays is then the same entry at row o + r, since an entry of a product reads one row of the left operand only.
-/
import Idealize.ShloMosaic.Lib.ValueIdx
import Idealize.ShloMosaic.Lib.ValueLayout
import Idealize.ShloMosaic.Lib.Pipeline.Value
import Idealize.ShloMosaic.PureOps.Ideal.Laws
import proofs.«163392_j1168231104586_1_alg».proof.Proof.LibPlainMatmul

noncomputable section

namespace Cert.DenseRows

open Idealize.ShloMosaic Idealize.ShloMosaic.ValueIdx

variable {M K N : ℕ}

/-- Entry (r, c) of the host's product [M, K] x [K, N] is the sum over k of a (r, k) * b (k, c). -/
theorem hostDot_apply (prec : Option ContractPrecision) {φ₁ φ₂ : FTy} (a : FVec Ideal ⟨2, ![M, K]⟩ φ₁) (b : FVec Ideal ⟨2, ![K, N]⟩ φ₂)
    (r : Fin M) (c : Fin N) :
    Host.dotGeneral (DotDims.plain M K N) prec a b (ix2 r c) = ∑ k : Fin K, a (ix2 r k) * b (ix2 k c) := by
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun x => Fin.ext (by
      match x with
      | ⟨0, _⟩ => exact Cert.PlainMatmul.lhs_row _ _
      | ⟨1, _⟩ => exact (Cert.PlainMatmul.lhs_col _ _).trans hk)
  have er : (DotDims.plain M K N).rhsIdx (ix2 r c) ((contrEquiv1 (DotDims.plain M K N) K rfl rfl).symm k) = ix2 k c :=
    funext fun x => Fin.ext (by
      match x with
      | ⟨0, _⟩ => exact (Cert.PlainMatmul.rhs_row _ _).trans hk
      | ⟨1, _⟩ => exact Cert.PlainMatmul.rhs_col _ _)
  rw [el, er]

/-- The layer's entry (r, c) before its activation. -/
def pre (A X : (⟨2, ![M, K]⟩ : Shape).Idx → EReal) (Wl Wr : (⟨2, ![K, N]⟩ : Shape).Idx → EReal)
    (b : (⟨1, ![N]⟩ : Shape).Idx → EReal) (r : Fin M) (c : Fin N) : EReal :=
  (∑ k : Fin K, A (ix2 r k) * Wl (ix2 k c)) + (∑ k : Fin K, X (ix2 r k) * Wr (ix2 k c)) + b (ix1 c)

/-- A bias row broadcast first to [1, N] and then to [M, N] reads, at (r, c), the bias at c. -/
theorem hostBias_apply (b : (⟨1, ![N]⟩ : Shape).Idx → EReal)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (c : Fin N) :
    broadcastInDim ⟨2, ![M, N]⟩ ![0, 1] h2 (broadcastInDim ⟨2, ![1, N]⟩ ![1] h1 b) (ix2 r c) = b (ix1 c) := by
  rw [broadcastInDim_apply ![0, 1] h2 _ (ix2 r c) (ix2 (0 : Fin 1) c) (fun a => by
    match a with
    | ⟨0, _⟩ => rfl
    | ⟨1, _⟩ =>
      show c.val = if N = 1 then 0 else c.val
      split
      · have := c.isLt; omega
      · rfl)]
  exact broadcastInDim_apply ![1] h1 b (ix2 (0 : Fin 1) c) (ix1 c) (fun a => by
    match a with
    | ⟨0, _⟩ =>
      show c.val = if N = 1 then 0 else c.val
      split
      · have := c.isLt; omega
      · rfl)

/-- The host's spelling of the layer before its activation — two whole products added, then the bias broadcast through a
    [1, N] row — is `pre` at every entry. -/
theorem host_pre (prec : Option ContractPrecision) (A X : FVec Ideal ⟨2, ![M, K]⟩ .f32) (Wl Wr : FVec Ideal ⟨2, ![K, N]⟩ .f32)
    (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (c : Fin N) :
    addf (addf (Host.dotGeneral (DotDims.plain M K N) prec A Wl) (Host.dotGeneral (DotDims.plain M K N) prec X Wr))
        (broadcastInDim ⟨2, ![M, N]⟩ ![0, 1] h2 (broadcastInDim ⟨2, ![1, N]⟩ ![1] h1 b)) (ix2 r c)
      = pre A X Wl Wr b r c := by
  show Host.dotGeneral (DotDims.plain M K N) prec A Wl (ix2 r c) + Host.dotGeneral (DotDims.plain M K N) prec X Wr (ix2 r c)
      + broadcastInDim ⟨2, ![M, N]⟩ ![0, 1] h2 (broadcastInDim ⟨2, ![1, N]⟩ ![1] h1 b) (ix2 r c) = _
  rw [hostDot_apply, hostDot_apply, hostBias_apply]
  rfl

/-- A tile's spelling — two products of [M, K] blocks into the zero accumulator added, then the bias cast to a [1, N] row and
    broadcast down the tile — is `pre` of the tile's operands at every entry, whatever the operands' float formats. -/
theorem tile_pre (prec : Option ContractPrecision) {φa φw : FTy} (A X : FVec Ideal ⟨2, ![M, K]⟩ φa) (Wl Wr : FVec Ideal ⟨2, ![K, N]⟩ φw)
    (b : FVec Ideal ⟨1, ![N]⟩ .f32)
    (h1 : (⟨1, ![N]⟩ : Shape).ShapeCasts ⟨2, ![1, N]⟩)
    (h2 : (⟨2, ![1, N]⟩ : Shape).Broadcasts ⟨2, ![M, N]⟩) (r : Fin M) (c : Fin N) :
    addf (addf (matmul (DotDims.plain M K N) prec A Wl (constant ⟨2, ![M, N]⟩ .f32 0x00000000#32))
          (matmul (DotDims.plain M K N) prec X Wr (constant ⟨2, ![M, N]⟩ .f32 0x00000000#32)))
        (broadcastTo ⟨2, ![M, N]⟩ (shapeCast ⟨2, ![1, N]⟩ b h1) h2) (ix2 r c)
      = pre A X Wl Wr b r c := by
  show FloatOps.matmul (DotDims.plain M K N) prec A Wl (constant ⟨2, ![M, N]⟩ .f32 0x00000000#32) (ix2 r c)
      + FloatOps.matmul (DotDims.plain M K N) prec X Wr (constant ⟨2, ![M, N]⟩ .f32 0x00000000#32) (ix2 r c)
      + broadcastTo ⟨2, ![M, N]⟩ (shapeCast ⟨2, ![1, N]⟩ b h1) h2 (ix2 r c) = _
  rw [Cert.PlainMatmul.apply, Cert.PlainMatmul.apply, broadcastTo_1b_ab_apply, shapeCast_a_1a_apply]
  rfl

/-- An entry of the layer reads one row of each left operand: if a tile's left operands are rows o, o + 1, … of the arrays'
    and its weights and bias are the arrays', the tile's entry (r, c) is the arrays' entry (o + r, c). -/
theorem pre_rows {T : ℕ} (o : ℕ) (A X : (⟨2, ![M, K]⟩ : Shape).Idx → EReal) (Wl Wr : (⟨2, ![K, N]⟩ : Shape).Idx → EReal)
    (b : (⟨1, ![N]⟩ : Shape).Idx → EReal)
    (At Xt : (⟨2, ![T, K]⟩ : Shape).Idx → EReal) (Wlt Wrt : (⟨2, ![K, N]⟩ : Shape).Idx → EReal) (bt : (⟨1, ![N]⟩ : Shape).Idx → EReal)
    (r : Fin T) (R : Fin M) (hR : R.val = o + r.val) (c : Fin N)
    (hA : ∀ k : Fin K, At (ix2 r k) = A (ix2 R k)) (hX : ∀ k : Fin K, Xt (ix2 r k) = X (ix2 R k))
    (hWl : ∀ k : Fin K, Wlt (ix2 k c) = Wl (ix2 k c)) (hWr : ∀ k : Fin K, Wrt (ix2 k c) = Wr (ix2 k c))
    (hb : bt (ix1 c) = b (ix1 c)) :
    pre At Xt Wlt Wrt bt r c = pre A X Wl Wr b R c := by
  unfold pre
  rw [hb]
  congr 2
  · exact Finset.sum_congr rfl fun k _ => by rw [hA k, hWl k]
  · exact Finset.sum_congr rfl fun k _ => by rw [hX k, hWr k]

end Cert.DenseRows

end
-- ==== Proof.HiddenLayer.lean ====
/-
  The first pallas_call's result array, as one function of the arrays it is entered with.

  The call walks 25 blocks of 2000 node rows. At block t it holds rows 2000 t … 2000 t + 1999 of the aggregated
  neighbour features and of the nodes' own features, both whole weight matrices and the whole bias, and stores
  max (agg · Wl + self · Wr + bias, 0) for those rows. An entry of either product reads one row of its left operand,
  so the stored tile is rows 2000 t … of ONE array function, `hidden`, of the five arrays; the 25 tiles cover all
  50000 rows, so the result array ends holding `hidden`.
-/
import proofs.«163392_j1168231104586_1_alg».proof.Proof.Gen.KernelIdeal.Frame
import proofs.«163392_j1168231104586_1_alg».proof.Proof.LibDenseRows
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hidden

open Cert.KernelIdeal Cert.KernelIdeal.Gen

/-- The hidden layer: entry (r, c) is max (agg (r, ·) · Wl (·, c) + self (r, ·) · Wr (·, c) + bias (c), 0). -/
def hidden (A X : S50000x128.Idx → EReal) (Wl Wr : S128x256.Idx → EReal) (b : S256.Idx → EReal) : S50000x256.Idx → EReal :=
  fun i => max (Cert.DenseRows.pre A X Wl Wr b ⟨(i 0).val, (i 0).isLt⟩ ⟨(i 1).val, (i 1).isLt⟩) 0

theorem hz2 : (![0, 0] : Fin 2 → Nat) = fun _ => 0 := funext fun a => by fin_cases a <;> rfl
theorem hz1 : (![0] : Fin 1 → Nat) = fun _ => 0 := funext fun a => by fin_cases a; rfl

/-- The body's stored value at entry (r, c) of a tile: the layer's entry of the tile's operands. -/
theorem pay_apply (x0 x1 : Vec Ideal S2000x128 .f32) (x2 x3 : Vec Ideal S128x256 .bf16) (x4 : Vec Ideal S256 .f32)
    (r : Fin 2000) (c : Fin 256) :
    k0_pay1 (F := Ideal) x0 x1 x2 x3 x4 (ix2 r c) = max (Cert.DenseRows.pre x0 x1 x2 x3 x4 r c) 0 := by
  have e := Cert.DenseRows.tile_pre (φa := .bf16) (φw := .bf16) none (truncf .bf16 x0 bitsLt_bf16_f32) (truncf .bf16 x1 bitsLt_bf16_f32) x2 x3 x4
    shapeCasts_S256_S1x256 broadcasts_S1x256_S2000x256 r c
  unfold k0_pay1
  rw [shapeCast_self, shapeCast_self, shapeCast_self]
  exact congrArg₂ max e Ideal.ofBits_zero_f32

/-! ## The tile at a grid point is rows 2000 t … of `hidden` -/

section Region

variable (V : (c : Dev nD) → (b : Ref sig .tc) → Buf (Elt Ideal) ((c : Thread nD τ).loc b))

/-- The printed index maps over the grid: the two row-blocked inputs and the output sit at block row t, the weights and the
    bias at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- Row r of the aggregated-feature tile at point t is row 2000 t + r of the array. -/
theorem agg_tile (c : Dev nD) (t : Fin cfg0.N) (r : Fin 2000) (k : Fin 128) (R : Fin 50000) (hR : R.val = t.val * 2000 + r.val) :
    (iblk0 V c 0 t : Vec Ideal S2000x128 .f32) (ix2 r k) = (V c main_v22 : S50000x128.Idx → EReal) (ix2 R k) := by
  obtain ⟨e0, e1, -⟩ := idx_facts t
  have h : ((cfg0.win 0).blk t).view.emb (ix2 r k) = ix2 R k := by
    funext a; apply Fin.ext
    match a with
    | ⟨0, _⟩ => show win0_0.index t (0 : Fin 2) * 2000 + 1 * r.val = R.val; rw [e0, hR]; omega
    | ⟨1, _⟩ => show win0_0.index t (1 : Fin 2) * 128 + 1 * k.val = k.val; rw [e1]; omega
  show V c main_v22 (((cfg0.win 0).blk t).view.emb (ix2 r k)) = _
  rw [h]

/-- Row r of the own-feature tile at point t is row 2000 t + r of the array. -/
theorem self_tile (c : Dev nD) (t : Fin cfg0.N) (r : Fin 2000) (k : Fin 128) (R : Fin 50000) (hR : R.val = t.val * 2000 + r.val) :
    (iblk0 V c 1 t : Vec Ideal S2000x128 .f32) (ix2 r k) = (V c main_arg0 : S50000x128.Idx → EReal) (ix2 R k) := by
  obtain ⟨-, -, e0, e1, -⟩ := idx_facts t
  have h : ((cfg0.win 1).blk t).view.emb (ix2 r k) = ix2 R k := by
    funext a; apply Fin.ext
    match a with
    | ⟨0, _⟩ => show win0_1.index t (0 : Fin 2) * 2000 + 1 * r.val = R.val; rw [e0, hR]; omega
    | ⟨1, _⟩ => show win0_1.index t (1 : Fin 2) * 128 + 1 * k.val = k.val; rw [e1]; omega
  show V c main_arg0 (((cfg0.win 1).blk t).view.emb (ix2 r k)) = _
  rw [h]

/-- The neighbour weight matrix is staged whole at every point. -/
theorem wl_tile (c : Dev nD) (t : Fin cfg0.N) (k : Fin 128) (q : Fin 256) :
    (iblk0 V c 2 t : Vec Ideal S128x256 .bf16) (ix2 k q) = (V c main_v23 : S128x256.Idx → EReal) (ix2 k q) := by
  obtain ⟨-, -, -, -, e0, e1, -⟩ := idx_facts t
  have h : ((cfg0.win 2).blk t).view.emb (ix2 k q) = ix2 k q := by
    funext a; apply Fin.ext
    match a with
    | ⟨0, _⟩ => show win0_2.index t (0 : Fin 2) * 128 + 1 * k.val = k.val; rw [e0]; omega
    | ⟨1, _⟩ => show win0_2.index t (1 : Fin 2) * 256 + 1 * q.val = q.val; rw [e1]; omega
  show V c main_v23 (((cfg0.win 2).blk t).view.emb (ix2 k q)) = _
  rw [h]

/-- The own weight matrix is staged whole at every point. -/
theorem wr_tile (c : Dev nD) (t : Fin cfg0.N) (k : Fin 128) (q : Fin 256) :
    (iblk0 V c 3 t : Vec Ideal S128x256 .bf16) (ix2 k q) = (V c main_v24 : S128x256.Idx → EReal) (ix2 k q) := by
  obtain ⟨-, -, -, -, -, -, e0, e1, -⟩ := idx_facts t
  have h : ((cfg0.win 3).blk t).view.emb (ix2 k q) = ix2 k q := by
    funext a; apply Fin.ext
    match a with
    | ⟨0, _⟩ => show win0_3.index t (0 : Fin 2) * 128 + 1 * k.val = k.val; rw [e0]; omega
    | ⟨1, _⟩ => show win0_3.index t (1 : Fin 2) * 256 + 1 * q.val = q.val; rw [e1]; omega
  show V c main_v24 (((cfg0.win 3).blk t).view.emb (ix2 k q)) = _
  rw [h]

/-- The bias is staged whole at every point. -/
theorem bias_tile (c : Dev nD) (t : Fin cfg0.N) (q : Fin 256) :
    (iblk0 V c 4 t : Vec Ideal S256 .f32) (ix1 q) = (V c main_arg4 : S256.Idx → EReal) (ix1 q) := by
  obtain ⟨-, -, -, -, -, -, -, -, e0, -⟩ := idx_facts t
  have h : ((cfg0.win 4).blk t).view.emb (ix1 q) = ix1 q := by
    funext a; apply Fin.ext
    match a with
    | ⟨0, _⟩ => show win0_4.index t (0 : Fin 1) * 256 + 1 * q.val = q.val; rw [e0]; omega
  show V c main_arg4 (((cfg0.win 4).blk t).view.emb (ix1 q)) = _
  rw [h]

/-- WHAT POINT t WRITES BACK is block t of `hidden` of the arrays as the call finds them. -/
theorem flushed_eq (c : Dev nD) (t : Fin cfg0.N) :
    (dat0 V c).flushed 5 t = ((cfg0.win 5).blk t).view.read (Elt Ideal)
      (hidden (V c main_v22) (V c main_arg0) (V c main_v23) (V c main_v24) (V c main_arg4)) := by
  show (cfg0.win 5).cut (grid0.coords t) ((dat0 V c).after 5 t) = _
  rw [after0_5]
  unfold out0_5
  rw [View.canon_unit_zero hz2]
  simp only [View.ld_unit_zero (S := S2000x128) hz2, View.ld_unit_zero (S := S128x256) hz2, View.ld_unit_zero (S := S256) hz1]
  obtain ⟨-, -, -, -, -, -, -, -, -, e0, e1⟩ := idx_facts t
  funext j
  obtain ⟨p, q, rfl⟩ : ∃ (p : Fin 2000) (q : Fin 256), j = ix2 p q := ⟨j 0, j 1, eq_ix2 j⟩
  show k0_pay1 (F := Ideal) (iblk0 V c 0 t) (iblk0 V c 1 t) (iblk0 V c 2 t) (iblk0 V c 3 t) (iblk0 V c 4 t) (ix2 p q)
    = hidden (V c main_v22) (V c main_arg0) (V c main_v23) (V c main_v24) (V c main_arg4) (((cfg0.win 5).blk t).view.emb (ix2 p q))
  rw [pay_apply]
  unfold hidden
  have ht : t.val < 25 := t.isLt
  have hr0 : ((((cfg0.win 5).blk t).view.emb (ix2 p q)) 0).val = t.val * 2000 + p.val := by
    show win0_5.index t (0 : Fin 2) * 2000 + 1 * p.val = _; rw [e0]; omega
  have hr1 : ((((cfg0.win 5).blk t).view.emb (ix2 p q)) 1).val = q.val := by
    show win0_5.index t (1 : Fin 2) * 256 + 1 * q.val = _; rw [e1]; omega
  refine congrArg (fun z => max z 0) ?_
  have hc : (⟨((((cfg0.win 5).blk t).view.emb (ix2 p q)) 1).val, ((((cfg0.win 5).blk t).view.emb (ix2 p q)) 1).isLt⟩ : Fin 256) = q := Fin.ext hr1
  rw [hc]
  exact Cert.DenseRows.pre_rows (t.val * 2000) _ _ _ _ _ _ _ _ _ _ p _ hr0 q
    (fun k => agg_tile V c t p k _ hr0) (fun k => self_tile V c t p k _ hr0)
    (fun k => wl_tile V c t k q) (fun k => wr_tile V c t k q) (bias_tile V c t q)

/-- An index of the result array is in point t's block iff each coordinate is in the block's range on its axis. -/
theorem mem_blk (t : Fin cfg0.N) (i : S50000x256.Idx) :
    i ∈ ((cfg0.win 5).blk t).view.set ↔ ∀ a : Fin 2, win0_5.index t a * S2000x256.size a ≤ (i a).val
      ∧ (i a).val < win0_5.index t a * S2000x256.size a + S2000x256.size a := by
  show i ∈ ((View.whole main_v25).slice (win0_5.rect t)).set ↔ _
  rw [View.set_slice_whole, Rect.mem_set_unit]
  exact Iff.rfl

/-- THE RESULT ARRAY after the call: row R lies in block R / 2000, so the 25 blocks cover it and it ends holding `hidden`. -/
theorem final (c : Dev nD) :
    (dat0 V c).arrAt 5 cfg0.N = hidden (V c main_v22) (V c main_arg0) (V c main_v23) (V c main_v24) (V c main_arg4) :=
  (dat0 V c).arrAt_eq_of_cover 5 _ (fun t _ => flushed_eq V c t) fun i => by
    have hi0 : (i 0).val < 50000 := (i 0).isLt
    have hi1 : (i 1).val < 256 := (i 1).isLt
    have hN : cfg0.N = 25 := N_0
    refine ⟨⟨(i 0).val / 2000, by rw [hN]; omega⟩, flush0_5 _, ?_⟩
    rw [mem_blk]
    obtain ⟨-, -, -, -, -, -, -, -, -, e0, e1⟩ := idx_facts ⟨(i 0).val / 2000, by rw [hN]; omega⟩
    intro a
    match a with
    | ⟨0, _⟩ =>
      show win0_5.index _ (0 : Fin 2) * 2000 ≤ (i 0).val ∧ (i 0).val < win0_5.index _ (0 : Fin 2) * 2000 + 2000
      rw [e0]; show (i 0).val / 2000 * 2000 ≤ (i 0).val ∧ (i 0).val < (i 0).val / 2000 * 2000 + 2000; omega
    | ⟨1, _⟩ =>
      show win0_5.index _ (1 : Fin 2) * 256 ≤ (i 1).val ∧ (i 1).val < win0_5.index _ (1 : Fin 2) * 256 + 256
      rw [e1]; omega

end Region

end Cert.KernelIdeal.Hidden

end
-- ==== Proof.OutputLayer.lean ====
/-
  The second pallas_call's result array, as one function of the arrays it is entered with.

  The same walk as the first call, one layer on: 25 blocks of 2000 node rows; at block t the tile holds rows
  2000 t … 2000 t + 1999 of the hidden features' neighbour means and of the hidden features themselves, the two [256, 64]
  weight matrices and the bias whole, and stores the logistic function of agg · Wl + self · Wr + bias for those rows. The
  stored tile is rows 2000 t … of ONE array function, `output`, and the 25 tiles cover the 50000 rows.
-/
import proofs.«163392_j1168231104586_1_alg».proof.Proof.Gen.KernelIdeal.Frame
import proofs.«163392_j1168231104586_1_alg».proof.Proof.LibDenseRows
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Output

open Cert.KernelIdeal Cert.KernelIdeal.Gen

/-- The output layer: entry (r, c) is the logistic function of agg (r, ·) · Wl (·, c) + self (r, ·) · Wr (·, c) + bias (c). -/
def output (A X : S50000x256.Idx → EReal) (Wl Wr : S256x64.Idx → EReal) (b : S64.Idx → EReal) : S50000x64.Idx → EReal :=
  fun i => Ideal.logistic (Cert.DenseRows.pre A X Wl Wr b ⟨(i 0).val, (i 0).isLt⟩ ⟨(i 1).val, (i 1).isLt⟩)

theorem hz2 : (![0, 0] : Fin 2 → Nat) = fun _ => 0 := funext fun a => by fin_cases a <;> rfl
theorem hz1 : (![0] : Fin 1 → Nat) = fun _ => 0 := funext fun a => by fin_cases a; rfl

/-- The body's stored value at entry (r, c) of a tile: the logistic function of the layer's entry of the tile's operands. -/
theorem pay_apply (x0 x1 : Vec Ideal S2000x256 .f32) (x2 x3 : Vec Ideal S256x64 .bf16) (x4 : Vec Ideal S64 .f32)
    (r : Fin 2000) (c : Fin 64) :
    k1_pay1 (F := Ideal) x0 x1 x2 x3 x4 (ix2 r c) = Ideal.logistic (Cert.DenseRows.pre x0 x1 x2 x3 x4 r c) := by
  have e := Cert.DenseRows.tile_pre (φa := .bf16) (φw := .bf16) none (truncf .bf16 x0 bitsLt_bf16_f32) (truncf .bf16 x1 bitsLt_bf16_f32) x2 x3 x4
    shapeCasts_S64_S1x64 broadcasts_S1x64_S2000x64 r c
  unfold k1_pay1
  rw [shapeCast_self, shapeCast_self, shapeCast_self, shapeCast_self]
  exact congrArg Ideal.logistic e

/-! ## The tile at a grid point is rows 2000 t … of `output` -/

section Region

variable (V : (c : Dev nD) → (b : Ref sig .tc) → Buf (Elt Ideal) ((c : Thread nD τ).loc b))

/-- The printed index maps over the grid: the two row-blocked inputs and the output sit at block row t, the weights and the
    bias at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- Row r of the aggregated hidden-feature tile at point t is row 2000 t + r of the array. -/
theorem agg_tile (c : Dev nD) (t : Fin cfg1.N) (r : Fin 2000) (k : Fin 256) (R : Fin 50000) (hR : R.val = t.val * 2000 + r.val) :
    (iblk1 V c 0 t : Vec Ideal S2000x256 .f32) (ix2 r k) = (V c main_v44 : S50000x256.Idx → EReal) (ix2 R k) := by
  obtain ⟨e0, e1, -⟩ := idx_facts t
  have h : ((cfg1.win 0).blk t).view.emb (ix2 r k) = ix2 R k := by
    funext a; apply Fin.ext
    match a with
    | ⟨0, _⟩ => show win1_0.index t (0 : Fin 2) * 2000 + 1 * r.val = R.val; rw [e0, hR]; omega
    | ⟨1, _⟩ => show win1_0.index t (1 : Fin 2) * 256 + 1 * k.val = k.val; rw [e1]; omega
  show V c main_v44 (((cfg1.win 0).blk t).view.emb (ix2 r k)) = _
  rw [h]

/-- Row r of the hidden-feature tile at point t is row 2000 t + r of the array. -/
theorem self_tile (c : Dev nD) (t : Fin cfg1.N) (r : Fin 2000) (k : Fin 256) (R : Fin 50000) (hR : R.val = t.val * 2000 + r.val) :
    (iblk1 V c 1 t : Vec Ideal S2000x256 .f32) (ix2 r k) = (V c main_v25 : S50000x256.Idx → EReal) (ix2 R k) := by
  obtain ⟨-, -, e0, e1, -⟩ := idx_facts t
  have h : ((cfg1.win 1).blk t).view.emb (ix2 r k) = ix2 R k := by
    funext a; apply Fin.ext
    match a with
    | ⟨0, _⟩ => show win1_1.index t (0 : Fin 2) * 2000 + 1 * r.val = R.val; rw [e0, hR]; omega
    | ⟨1, _⟩ => show win1_1.index t (1 : Fin 2) * 256 + 1 * k.val = k.val; rw [e1]; omega
  show V c main_v25 (((cfg1.win 1).blk t).view.emb (ix2 r k)) = _
  rw [h]

/-- The neighbour weight matrix is staged whole at every point. -/
theorem wl_tile (c : Dev nD) (t : Fin cfg1.N) (k : Fin 256) (q : Fin 64) :
    (iblk1 V c 2 t : Vec Ideal S256x64 .bf16) (ix2 k q) = (V c main_v45 : S256x64.Idx → EReal) (ix2 k q) := by
  obtain ⟨-, -, -, -, e0, e1, -⟩ := idx_facts t
  have h : ((cfg1.win 2).blk t).view.emb (ix2 k q) = ix2 k q := by
    funext a; apply Fin.ext
    match a with
    | ⟨0, _⟩ => show win1_2.index t (0 : Fin 2) * 256 + 1 * k.val = k.val; rw [e0]; omega
    | ⟨1, _⟩ => show win1_2.index t (1 : Fin 2) * 64 + 1 * q.val = q.val; rw [e1]; omega
  show V c main_v45 (((cfg1.win 2).blk t).view.emb (ix2 k q)) = _
  rw [h]

/-- The own weight matrix is staged whole at every point. -/
theorem wr_tile (c : Dev nD) (t : Fin cfg1.N) (k : Fin 256) (q : Fin 64) :
    (iblk1 V c 3 t : Vec Ideal S256x64 .bf16) (ix2 k q) = (V c main_v46 : S256x64.Idx → EReal) (ix2 k q) := by
  obtain ⟨-, -, -, -, -, -, e0, e1, -⟩ := idx_facts t
  have h : ((cfg1.win 3).blk t).view.emb (ix2 k q) = ix2 k q := by
    funext a; apply Fin.ext
    match a with
    | ⟨0, _⟩ => show win1_3.index t (0 : Fin 2) * 256 + 1 * k.val = k.val; rw [e0]; omega
    | ⟨1, _⟩ => show win1_3.index t (1 : Fin 2) * 64 + 1 * q.val = q.val; rw [e1]; omega
  show V c main_v46 (((cfg1.win 3).blk t).view.emb (ix2 k q)) = _
  rw [h]

/-- The bias is staged whole at every point. -/
theorem bias_tile (c : Dev nD) (t : Fin cfg1.N) (q : Fin 64) :
    (iblk1 V c 4 t : Vec Ideal S64 .f32) (ix1 q) = (V c main_arg7 : S64.Idx → EReal) (ix1 q) := by
  obtain ⟨-, -, -, -, -, -, -, -, e0, -⟩ := idx_facts t
  have h : ((cfg1.win 4).blk t).view.emb (ix1 q) = ix1 q := by
    funext a; apply Fin.ext
    match a with
    | ⟨0, _⟩ => show win1_4.index t (0 : Fin 1) * 64 + 1 * q.val = q.val; rw [e0]; omega
  show V c main_arg7 (((cfg1.win 4).blk t).view.emb (ix1 q)) = _
  rw [h]

/-- WHAT POINT t WRITES BACK is block t of `output` of the arrays as the call finds them. -/
theorem flushed_eq (c : Dev nD) (t : Fin cfg1.N) :
    (dat1 V c).flushed 5 t = ((cfg1.win 5).blk t).view.read (Elt Ideal)
      (output (V c main_v44) (V c main_v25) (V c main_v45) (V c main_v46) (V c main_arg7)) := by
  show (cfg1.win 5).cut (grid1.coords t) ((dat1 V c).after 5 t) = _
  rw [after1_5]
  unfold out1_5
  rw [View.canon_unit_zero hz2]
  simp only [View.ld_unit_zero (S := S2000x256) hz2, View.ld_unit_zero (S := S256x64) hz2, View.ld_unit_zero (S := S64) hz1]
  obtain ⟨-, -, -, -, -, -, -, -, -, e0, e1⟩ := idx_facts t
  funext j
  obtain ⟨p, q, rfl⟩ : ∃ (p : Fin 2000) (q : Fin 64), j = ix2 p q := ⟨j 0, j 1, eq_ix2 j⟩
  show k1_pay1 (F := Ideal) (iblk1 V c 0 t) (iblk1 V c 1 t) (iblk1 V c 2 t) (iblk1 V c 3 t) (iblk1 V c 4 t) (ix2 p q)
    = output (V c main_v44) (V c main_v25) (V c main_v45) (V c main_v46) (V c main_arg7) (((cfg1.win 5).blk t).view.emb (ix2 p q))
  rw [pay_apply]
  unfold output
  have ht : t.val < 25 := t.isLt
  have hr0 : ((((cfg1.win 5).blk t).view.emb (ix2 p q)) 0).val = t.val * 2000 + p.val := by
    show win1_5.index t (0 : Fin 2) * 2000 + 1 * p.val = _; rw [e0]; omega
  have hr1 : ((((cfg1.win 5).blk t).view.emb (ix2 p q)) 1).val = q.val := by
    show win1_5.index t (1 : Fin 2) * 64 + 1 * q.val = _; rw [e1]; omega
  refine congrArg Ideal.logistic ?_
  have hc : (⟨((((cfg1.win 5).blk t).view.emb (ix2 p q)) 1).val, ((((cfg1.win 5).blk t).view.emb (ix2 p q)) 1).isLt⟩ : Fin 64) = q := Fin.ext hr1
  rw [hc]
  exact Cert.DenseRows.pre_rows (t.val * 2000) _ _ _ _ _ _ _ _ _ _ p _ hr0 q
    (fun k => agg_tile V c t p k _ hr0) (fun k => self_tile V c t p k _ hr0)
    (fun k => wl_tile V c t k q) (fun k => wr_tile V c t k q) (bias_tile V c t q)

/-- An index of the result array is in point t's block iff each coordinate is in the block's range on its axis. -/
theorem mem_blk (t : Fin cfg1.N) (i : S50000x64.Idx) :
    i ∈ ((cfg1.win 5).blk t).view.set ↔ ∀ a : Fin 2, win1_5.index t a * S2000x64.size a ≤ (i a).val
      ∧ (i a).val < win1_5.index t a * S2000x64.size a + S2000x64.size a := by
  show i ∈ ((View.whole main_v47).slice (win1_5.rect t)).set ↔ _
  rw [View.set_slice_whole, Rect.mem_set_unit]
  exact Iff.rfl

/-- THE RESULT ARRAY after the call: row R lies in block R / 2000, so the 25 blocks cover it and it ends holding `output`. -/
theorem final (c : Dev nD) :
    (dat1 V c).arrAt 5 cfg1.N = output (V c main_v44) (V c main_v25) (V c main_v45) (V c main_v46) (V c main_arg7) :=
  (dat1 V c).arrAt_eq_of_cover 5 _ (fun t _ => flushed_eq V c t) fun i => by
    have hi0 : (i 0).val < 50000 := (i 0).isLt
    have hi1 : (i 1).val < 64 := (i 1).isLt
    have hN : cfg1.N = 25 := N_1
    refine ⟨⟨(i 0).val / 2000, by rw [hN]; omega⟩, flush1_5 _, ?_⟩
    rw [mem_blk]
    obtain ⟨-, -, -, -, -, -, -, -, -, e0, e1⟩ := idx_facts ⟨(i 0).val / 2000, by rw [hN]; omega⟩
    intro a
    match a with
    | ⟨0, _⟩ =>
      show win1_5.index _ (0 : Fin 2) * 2000 ≤ (i 0).val ∧ (i 0).val < win1_5.index _ (0 : Fin 2) * 2000 + 2000
      rw [e0]; show (i 0).val / 2000 * 2000 ≤ (i 0).val ∧ (i 0).val < (i 0).val / 2000 * 2000 + 2000; omega
    | ⟨1, _⟩ =>
      show win1_5.index _ (1 : Fin 2) * 64 ≤ (i 1).val ∧ (i 1).val < win1_5.index _ (1 : Fin 2) * 64 + 64
      rw [e1]; omega

end Region

end Cert.KernelIdeal.Output

end
-- ==== Proof.LayersVsHost.lean ====
/-
  The two layer functions against the host's spelling of the same layers.

  The reference computes the hidden layer as two whole products added, the bias broadcast through a [1, 256] row, and a
  maximum with a zero array; the output layer likewise with 1 / (1 + exp (- ·)) in place of the maximum. Entry by entry the
  first is `hidden` and the second `output` of the same operands: both products are plain sums over the contraction index,
  the maximum with the zero array is the maximum with 0, and 1 / (1 + exp (-z)) is the logistic function of z on every
  extended real (the two infinities included: it is the definition).
-/
import proofs.«163392_j1168231104586_1_alg».proof.Proof.HiddenLayer
import proofs.«163392_j1168231104586_1_alg».proof.Proof.OutputLayer
import proofs.«163392_j1168231104586_1_alg».proof.Proof.Gen.ReferenceIdeal.Read
import Idealize.ShloMosaic.Lib.IdealHost

noncomputable section

open Idealize.ShloMosaic Idealize.ShloMosaic.ValueIdx

namespace Cert.LayersVsHost

open Cert.ReferenceIdeal Cert.ReferenceIdeal.Gen Cert.ReferenceIdeal.Read

/-- The printed dimension numbers of the first layer's products are the plain ones: contract the left operand's columns with
    the right operand's rows, no batch axis. -/
theorem dot1_plain : dot_S50000x128_S128x256_S50000x256_1_0_0_1_n_n = DotDims.plain 50000 128 256 := rfl

/-- The reference's hidden features, from the aggregated input features: `hidden` of the same operands. -/
theorem hidden_eq (x0 : (⟨S50000x128, .f32⟩ : BufTy).Contents (Elt Ideal)) (x1 : (⟨S2x800000, .i32⟩ : BufTy).Contents (Elt Ideal))
    (x2 x3 : (⟨S128x256, .f32⟩ : BufTy).Contents (Elt Ideal)) (x4 : (⟨S256, .f32⟩ : BufTy).Contents (Elt Ideal)) :
    Cert.KernelIdeal.Hidden.hidden (val_main_v22 (F := Ideal) x0 x1) x0 x2 x3 x4 = val_main_v29 (F := Ideal) x0 x1 x2 x3 x4 := by
  funext i
  obtain ⟨r, q, rfl⟩ : ∃ (r : Fin 50000) (q : Fin 256), i = ix2 r q := ⟨i 0, i 1, eq_ix2 i⟩
  rw [val_main_v29_apply, val_main_v28_apply, val_main_v25_apply, val_main_call0_v0_apply, val_main_call0_cst_apply]
  unfold val_main_v23 val_main_v24 val_main_v27 val_main_v26
  generalize val_main_v22 (F := Ideal) x0 x1 = A
  rw [dot1_plain, Cert.DenseRows.hostDot_apply, Cert.DenseRows.hostDot_apply, Cert.DenseRows.hostBias_apply]
  unfold Cert.KernelIdeal.Hidden.hidden Cert.DenseRows.pre
  exact congrArg (max _) Ideal.ofBits_zero_f32.symm

/-- The second layer's products' dimension numbers are the plain ones too. -/
theorem dot2_plain : dot_S50000x256_S256x64_S50000x64_1_0_0_1_n_n = DotDims.plain 50000 256 64 := rfl

/-- The reference's result, from the aggregated hidden features and the hidden features: `output` of the same operands. -/
theorem output_eq (x0 : (⟨S50000x128, .f32⟩ : BufTy).Contents (Elt Ideal)) (x1 : (⟨S2x800000, .i32⟩ : BufTy).Contents (Elt Ideal))
    (x2 x3 : (⟨S128x256, .f32⟩ : BufTy).Contents (Elt Ideal)) (x4 : (⟨S256, .f32⟩ : BufTy).Contents (Elt Ideal))
    (x5 x6 : (⟨S256x64, .f32⟩ : BufTy).Contents (Elt Ideal)) (x7 : (⟨S64, .f32⟩ : BufTy).Contents (Elt Ideal)) :
    Cert.KernelIdeal.Output.output (val_main_v48 (F := Ideal) x0 x1 x2 x3 x4) (val_main_v29 (F := Ideal) x0 x1 x2 x3 x4) x5 x6 x7
      = val_main_v60 (F := Ideal) x0 x1 x2 x3 x4 x5 x6 x7 := by
  funext i
  obtain ⟨r, q, rfl⟩ : ∃ (r : Fin 50000) (q : Fin 64), i = ix2 r q := ⟨i 0, i 1, eq_ix2 i⟩
  rw [val_main_v60_apply, val_main_v58_apply, val_main_v56_apply, val_main_v55_apply, val_main_v54_apply, val_main_v51_apply,
    val_main_v59_apply, val_main_cst_11_apply, val_main_v57_apply, val_main_cst_10_apply]
  unfold val_main_v49 val_main_v50 val_main_v53 val_main_v52
  generalize val_main_v48 (F := Ideal) x0 x1 x2 x3 x4 = A
  generalize val_main_v29 (F := Ideal) x0 x1 x2 x3 x4 = H
  have one : FloatOps.ofBits (F := Ideal) .f32 0x3F800000#32 = (1 : EReal) := Ideal.ofBits_one_f32
  rw [one, dot2_plain, Cert.DenseRows.hostDot_apply, Cert.DenseRows.hostDot_apply, Cert.DenseRows.hostBias_apply]
  unfold Cert.KernelIdeal.Output.output Cert.DenseRows.pre
  rfl

end Cert.LayersVsHost

end
-- ==== Proof.ResultValue.lean ====
/-
  What the kernel program's result array holds at the end of the run, as the reference's own function of the arguments.

  The program's buffers are followed through its four stretches. The host operations before the first call aggregate
  the input features over the edges exactly as the reference does (the same operations on the same operands), and round the
  weights' format, which changes no extended real. The first call leaves `hidden` of those in its result array: the
  reference's hidden features. The host operations between the calls aggregate that array over the edges, again as the
  reference does, and the second call leaves `output` of what it finds: the reference's result.
-/
import proofs.«163392_j1168231104586_1_alg».proof.Proof.HiddenLayer
import proofs.«163392_j1168231104586_1_alg».proof.Proof.OutputLayer
import proofs.«163392_j1168231104586_1_alg».proof.Proof.LayersVsHost
import proofs.«163392_j1168231104586_1_alg».proof.Proof.Gen.ReferenceIdeal.Read
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.ResultValue

open Cert.KernelIdeal Cert.KernelIdeal.Gen
open Cert.ReferenceIdeal.Read

variable (m : (ℓ : Loc nD τ sig) → Buf (Elt Ideal) ℓ) (ρ : Dev nD → PrngReg)

/-- The eight argument arrays at launch. -/
abbrev a0 (c : Dev nD) : S50000x128.Idx → EReal := m ((c.tc : Thread nD τ).loc main_arg0)
abbrev a1 (c : Dev nD) : S2x800000.Idx → BitVec 32 := m ((c.tc : Thread nD τ).loc main_arg1)
abbrev a2 (c : Dev nD) : S128x256.Idx → EReal := m ((c.tc : Thread nD τ).loc main_arg2)
abbrev a3 (c : Dev nD) : S128x256.Idx → EReal := m ((c.tc : Thread nD τ).loc main_arg3)
abbrev a4 (c : Dev nD) : S256.Idx → EReal := m ((c.tc : Thread nD τ).loc main_arg4)
abbrev a5 (c : Dev nD) : S256x64.Idx → EReal := m ((c.tc : Thread nD τ).loc main_arg5)
abbrev a6 (c : Dev nD) : S256x64.Idx → EReal := m ((c.tc : Thread nD τ).loc main_arg6)
abbrev a7 (c : Dev nD) : S64.Idx → EReal := m ((c.tc : Thread nD τ).loc main_arg7)

/-! ## Entering the first call -/

/-- The aggregated input features are the reference's. -/
theorem agg1_eq (c : Dev nD) : (V1 m ρ c main_v22 : S50000x128.Idx → EReal) = val_main_v22 (F := Ideal) (a0 m c) (a1 m c) := by
  show StableHlo.after hostOps0 (W0 m ρ c) (Proc.devRef .tc main_v22) = _
  after_results_simp
  rfl

theorem self1_eq (c : Dev nD) : (V1 m ρ c main_arg0 : S50000x128.Idx → EReal) = a0 m c := by
  show StableHlo.after hostOps0 (W0 m ρ c) (Proc.devRef .tc main_arg0) = _
  after_results_simp

theorem wl1_eq (c : Dev nD) : (V1 m ρ c main_v23 : S128x256.Idx → EReal) = a2 m c := by
  show StableHlo.after hostOps0 (W0 m ρ c) (Proc.devRef .tc main_v23) = _
  after_results_simp
  rfl

theorem wr1_eq (c : Dev nD) : (V1 m ρ c main_v24 : S128x256.Idx → EReal) = a3 m c := by
  show StableHlo.after hostOps0 (W0 m ρ c) (Proc.devRef .tc main_v24) = _
  after_results_simp
  rfl

theorem b1_eq (c : Dev nD) : (V1 m ρ c main_arg4 : S256.Idx → EReal) = a4 m c := by
  show StableHlo.after hostOps0 (W0 m ρ c) (Proc.devRef .tc main_arg4) = _
  after_results_simp

/-! ## Leaving the first call, entering the second -/

/-- The first call's result array holds the reference's hidden features. -/
theorem hidden_eq (c : Dev nD) :
    (W2 m ρ c (Proc.devRef .tc main_v25) : S50000x256.Idx → EReal)
      = val_main_v29 (F := Ideal) (a0 m c) (a1 m c) (a2 m c) (a3 m c) (a4 m c) := by
  refine (W2_arr m ρ c 5).trans ((Cert.KernelIdeal.Hidden.final (V1 m ρ) c).trans ?_)
  rw [agg1_eq, self1_eq, wl1_eq, wr1_eq, b1_eq]
  exact Cert.LayersVsHost.hidden_eq _ _ _ _ _

/-- The edges' source nodes, computed before the first call, are still there after it. -/
theorem src_eq (c : Dev nD) : (W2 m ρ c (Proc.devRef .tc main_v1) : S800000.Idx → BitVec 32) = val_main_v1 (F := Ideal) (a1 m c) := by
  refine (W2_of_ne m ρ c main_v1 (by decide)).trans ?_
  show StableHlo.after hostOps0 (W0 m ρ c) (Proc.devRef .tc main_v1) = _
  after_results_simp
  rfl

/-- The edges' destination nodes likewise. -/
theorem dst_eq (c : Dev nD) : (W2 m ρ c (Proc.devRef .tc main_v3) : S800000.Idx → BitVec 32) = val_main_v3 (F := Ideal) (a1 m c) := by
  refine (W2_of_ne m ρ c main_v3 (by decide)).trans ?_
  show StableHlo.after hostOps0 (W0 m ρ c) (Proc.devRef .tc main_v3) = _
  after_results_simp
  rfl

/-- An argument array no operation and no call has written is at its launch contents when the second stretch starts. -/
theorem arg5_eq (c : Dev nD) : (W2 m ρ c (Proc.devRef .tc main_arg5) : S256x64.Idx → EReal) = a5 m c := by
  refine (W2_of_ne m ρ c main_arg5 (by decide)).trans ?_
  show StableHlo.after hostOps0 (W0 m ρ c) (Proc.devRef .tc main_arg5) = _
  after_results_simp
theorem arg6_eq (c : Dev nD) : (W2 m ρ c (Proc.devRef .tc main_arg6) : S256x64.Idx → EReal) = a6 m c := by
  refine (W2_of_ne m ρ c main_arg6 (by decide)).trans ?_
  show StableHlo.after hostOps0 (W0 m ρ c) (Proc.devRef .tc main_arg6) = _
  after_results_simp
theorem arg7_eq (c : Dev nD) : (W2 m ρ c (Proc.devRef .tc main_arg7) : S64.Idx → EReal) = a7 m c := by
  refine (W2_of_ne m ρ c main_arg7 (by decide)).trans ?_
  show StableHlo.after hostOps0 (W0 m ρ c) (Proc.devRef .tc main_arg7) = _
  after_results_simp

/-- The aggregated hidden features are the reference's. -/
theorem agg2_eq (c : Dev nD) :
    (V3 m ρ c main_v44 : S50000x256.Idx → EReal) = val_main_v48 (F := Ideal) (a0 m c) (a1 m c) (a2 m c) (a3 m c) (a4 m c) := by
  show StableHlo.after hostOps1 (W2 m ρ c) (Proc.devRef .tc main_v44) = _
  after_results_simp
  rw [hidden_eq, src_eq, dst_eq]
  rfl

theorem self2_eq (c : Dev nD) :
    (V3 m ρ c main_v25 : S50000x256.Idx → EReal) = val_main_v29 (F := Ideal) (a0 m c) (a1 m c) (a2 m c) (a3 m c) (a4 m c) := by
  show StableHlo.after hostOps1 (W2 m ρ c) (Proc.devRef .tc main_v25) = _
  after_results_simp
  exact hidden_eq m ρ c

theorem wl2_eq (c : Dev nD) : (V3 m ρ c main_v45 : S256x64.Idx → EReal) = a5 m c := by
  show StableHlo.after hostOps1 (W2 m ρ c) (Proc.devRef .tc main_v45) = _
  after_results_simp
  rw [arg5_eq]
  rfl

theorem wr2_eq (c : Dev nD) : (V3 m ρ c main_v46 : S256x64.Idx → EReal) = a6 m c := by
  show StableHlo.after hostOps1 (W2 m ρ c) (Proc.devRef .tc main_v46) = _
  after_results_simp
  rw [arg6_eq]
  rfl

theorem b2_eq (c : Dev nD) : (V3 m ρ c main_arg7 : S64.Idx → EReal) = a7 m c := by
  show StableHlo.after hostOps1 (W2 m ρ c) (Proc.devRef .tc main_arg7) = _
  after_results_simp
  exact arg7_eq m ρ c

/-! ## Leaving the second call -/

/-- THE RESULT ARRAY at the end of the run holds the reference's result of the launch arguments. -/
theorem result_eq (c : Dev nD) :
    (W4 m ρ c (Proc.devRef .tc main_v47) : S50000x64.Idx → EReal)
      = val_main_v60 (F := Ideal) (a0 m c) (a1 m c) (a2 m c) (a3 m c) (a4 m c) (a5 m c) (a6 m c) (a7 m c) := by
  refine (W4_arr m ρ c 5).trans ((Cert.KernelIdeal.Output.final (V3 m ρ) c).trans ?_)
  rw [agg2_eq, self2_eq, wl2_eq, wr2_eq, b2_eq]
  exact Cert.LayersVsHost.output_eq _ _ _ _ _ _ _ _

end Cert.KernelIdeal.ResultValue

end
-- ==== Proof.lean ====
/-
  A two-layer graph network with mean aggregation, computed by two tiled TensorCore calls, against its plain reference.

  Both programs aggregate each node's neighbour features over the edge list with the same host operations (a gather by the
  source nodes, a scatter-add by the destination nodes, a division by the clamped in-degree). The kernel program then runs
  each dense layer as a pallas_call over 25 tiles of 2000 node rows — two products into a zero accumulator, a bias row,
  and max (·, 0) in the first layer, the logistic function in the second — where the reference takes two whole products.
  Over the extended reals a change of float format is the identity and a product's entry is a sum over the contraction
  index whatever the tiling, so each call's result array is the reference's layer entry by entry, and the host operations
  between the calls see equal arrays. No law used needs finiteness: the precondition is never opened.

  The three frames are the generated ones (the reference's from its generated run); the ideal pass rewrote nothing, so
  `preserves` is trivial; the value claim joins the kernel program's run, read at its result array, with the reference's
  run at one common array: the reference's own result function of the launch arguments.
-/
import proofs.«163392_j1168231104586_1_alg».proof.Defs
import proofs.«163392_j1168231104586_1_alg».proof.Proof.Gen.Kernel
import proofs.«163392_j1168231104586_1_alg».proof.Proof.Gen.Kernel.Frame
import proofs.«163392_j1168231104586_1_alg».proof.Proof.Gen.KernelIdeal
import proofs.«163392_j1168231104586_1_alg».proof.Proof.Gen.KernelIdeal.Frame
import proofs.«163392_j1168231104586_1_alg».proof.Proof.Gen.ReferenceIdeal
import proofs.«163392_j1168231104586_1_alg».proof.Proof.Gen.ReferenceIdeal.Run
import proofs.«163392_j1168231104586_1_alg».proof.Proof.Gen.ReferenceIdeal.Read
import proofs.«163392_j1168231104586_1_alg».proof.Proof.Gen.Pre_finite_inputs
import proofs.«163392_j1168231104586_1_alg».proof.Proof.ResultRun
import proofs.«163392_j1168231104586_1_alg».proof.Proof.ResultValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the reference's result function of the launch arguments in their result arrays: the kernel
    program by following its buffers through the two calls, the reference by its own run; the arguments agree. -/
theorem algebraic : Cert.algebraic_KernelIdeal_ReferenceIdeal := by
  intro m ρ m' ρ' _ hagree
  refine ⟨fun c => Cert.ReferenceIdeal.Read.val_main_v60 (F := Ideal)
    (Cert.KernelIdeal.ResultValue.a0 m c) (Cert.KernelIdeal.ResultValue.a1 m c) (Cert.KernelIdeal.ResultValue.a2 m c)
    (Cert.KernelIdeal.ResultValue.a3 m c) (Cert.KernelIdeal.ResultValue.a4 m c) (Cert.KernelIdeal.ResultValue.a5 m c)
    (Cert.KernelIdeal.ResultValue.a6 m c) (Cert.KernelIdeal.ResultValue.a7 m c), ?_, ?_⟩
  · exact (θ_run Cert.KernelIdeal.defs _ _).mono
      (fun _ h c => ⟨(h c).1.trans (Cert.KernelIdeal.ResultValue.result_eq m ρ c), (h c).2⟩)
      (Cert.KernelIdeal.ResultRun.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7⟩ := hagree c
    rw [Cert.ReferenceIdeal.Read.val_main_v60_eq, e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
